-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S512x128 .f32) (main_arg12 : FVec F S128 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x128 .f32 := Host.absf main_arg11
  let main_cst_20 : FVec F S_ .f32 := constant S_ .f32 0x7F800000#32
  let main_v55 : FVec F S512x128 .f32 := broadcastInDim S512x128 ![] bcast_S_S512x128 main_cst_20
  let main_v56 : IVec S512x128 1 := cmpf .olt main_v54 main_v55
  let main_c_21 : IVec S_ 1 := constantI S_ 1 1#1
  let main_v57 : IVec S_ 1 := (fun x v => Host.reduce IntOp.andi x v reducesTo_S512x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S128x512 .f32) (main_arg8 : FVec F S512 .f32) (main_arg9 : FVec F S512x512 .f32) (main_arg10 : FVec F S512 .f32) (main_arg11 : FVec F S512x128 .f32) (main_arg12 : FVec F S128 .f32) (main_v33 : IVec S_ 1) : IVec S_ 1 :=
  let main_v34 : FVec F S128x512 .f32 := Host.absf main_arg7
  let main_cst_12 : FVec F S_ .f32 := constant S_ .f32 0x7F800000#32
  let main_v35 : FVec F S128x512 .f32 := broadcastInDim S128x512 ![] bcast_S_S128x512 main_cst_12
  let main_v36 : IVec S128x512 1 := cmpf .olt main_v34 main_v35
  let main_c_13 : IVec S_ 1 := constantI S_ 1 1#1
  let main_v37 : IVec S_ 1 := (fun x v => Host.reduce IntOp.andi x v reducesTo_S128x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_v48 main_v49 main_v50

def fn_part1 {F : FTy → Type} [FloatOps F] (main_arg4 : FVec F S512 .f32) (main_arg5 : FVec F S512x128 .f32) (main_arg6 : FVec F S128 .f32) (main_arg7 : FVec F S128x512 .f32) (main_arg8 : FVec F S512 .f32) (main_arg9 : FVec F S512x512 .f32) (main_arg10 : FVec F S512 .f32) (main_arg11 : FVec F S512x128 .f32) (main_arg12 : FVec F S128 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x128 .f32 := Host.absf main_arg5
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S65536x256 .f32) (main_arg1 : FVec F S128x512 .f32) (main_arg2 : FVec F S512 .f32) (main_arg3 : FVec F S512x512 .f32) (main_arg4 : FVec F S512 .f32) (main_arg5 : FVec F S512x128 .f32) (main_arg6 : FVec F S128 .f32) (main_arg7 : FVec F S128x512 .f32) (main_arg8 : FVec F S512 .f32) (main_arg9 : FVec F S512x512 .f32) (main_arg10 : FVec F S512 .f32) (main_arg11 : FVec F S512x128 .f32) (main_arg12 : FVec F S128 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_v13 main_v16
-- ==== Kernel.lean ====
abbrev S65536x256 : Shape := ⟨2, ![65536, 256]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S1x512 : Shape := ⟨2, ![1, 512]⟩
abbrev S1x128 : Shape := ⟨2, ![1, 128]⟩
abbrev S65536 : Shape := ⟨1, ![65536]⟩
abbrev S1024x256 : Shape := ⟨2, ![1024, 256]⟩
abbrev S1024 : Shape := ⟨1, ![1024]⟩
abbrev S1024x128 : Shape := ⟨2, ![1024, 128]⟩
abbrev S1024x512 : Shape := ⟨2, ![1024, 512]⟩

abbrev nBuf : Space → Nat
  | .hbm => 27
  | .vmem => 18
  | .smem => 0
  | _ => 0

abbrev bufTy : (tb : Table) → Fin (tcTables nBuf tb) → BufTy
  | .hbm, ⟨0, _⟩ => ⟨S65536x256, .f32⟩
  | .hbm, ⟨1, _⟩ => ⟨S128x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x128, .f32⟩
  | .hbm, ⟨6, _⟩ => ⟨S128, .f32⟩
  | .hbm, ⟨7, _⟩ => ⟨S128x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x128, .f32⟩
  | .hbm, ⟨12, _⟩ => ⟨S128, .f32⟩
  | .hbm, ⟨13, _⟩ => ⟨S128x512, .bf16⟩
  | .hbm, ⟨14, _⟩ => ⟨S512x512, .bf16⟩
  | .hbm, ⟨15, _⟩ => ⟨S512x128, .bf16⟩
  | .hbm, ⟨16, _⟩ => ⟨S128x512, .bf16⟩
  | .hbm, ⟨17, _⟩ => ⟨S512x512, .bf16⟩
  | .hbm, ⟨18, _⟩ => ⟨S512x128, .bf16⟩
  | .hbm, ⟨19, _⟩ => ⟨S1x512, .f32⟩
  | .hbm, ⟨20, _⟩ => ⟨S1x512, .f32⟩
  | .hbm, ⟨21, _⟩ => ⟨S1x128, .f32⟩
  | .hbm, ⟨22, _⟩ => ⟨S1x512, .f32⟩
  | .hbm, ⟨23, _⟩ => ⟨S1x512, .f32⟩
  | .hbm, ⟨24, _⟩ => ⟨S1x128, .f32⟩
  | .hbm, ⟨25, _⟩ => ⟨S65536x256, .f32⟩
  | .hbm, ⟨26, _⟩ => ⟨S65536, .f32⟩
  | .local _ .vmem, ⟨0, _⟩ => ⟨S1024x256, .f32⟩
  | .local _ .vmem, ⟨1, _⟩ => ⟨S1024x256, .f32⟩
  | .local _ .vmem, ⟨2, _⟩ => ⟨S128x512, .bf16⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S512x128, .bf16⟩
  | .local _ .vmem, ⟨7, _⟩ => ⟨S1x128, .f32⟩
  | .local _ .vmem, ⟨8, _⟩ => ⟨S128x512, .bf16⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S512x128, .bf16⟩
  | .local _ .vmem, ⟨13, _⟩ => ⟨S1x128, .f32⟩
  | .local _ .vmem, ⟨14, _⟩ => ⟨S1024x256, .f32⟩
  | .local _ .vmem, ⟨15, _⟩ => ⟨S1024x256, .f32⟩
  | .local _ .vmem, ⟨16, _⟩ => ⟨S1024, .f32⟩
  | .local _ .vmem, ⟨17, _⟩ => ⟨S1024, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bitsLt_bf16_f32 : FTy.bits .bf16 < FTy.bits .f32
  shapeCasts_S512_S1x512 : S512.ShapeCasts S1x512
  shapeCasts_S128_S1x128 : S128.ShapeCasts S1x128
  inb_S1024x256_S1024x256_0_0 : ∀ a, (![0, 0] : Fin 2 → Nat) a + S1024x256.size a ≤ S1024x256.size a
  h_S1024x256 : 0 < S1024x256.numel
  slices_S1024x256_o0_0_S1024x128 : S1024x256.Slices ![0, 0] S1024x128
  slices_S1024x256_o0_128_S1024x128 : S1024x256.Slices ![0, 128] S1024x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  concatenates_S1024x128_S1024x128_S1024x256_d1 : Shape.Concatenates [S1024x128, S1024x128] S1024x256 1
  reduces_S1024x128_S1024 : S1024x128.Reduces [1] S1024
  inb_S1024_S1024_0 : ∀ a, (![0] : Fin 1 → Nat) a + S1024.size a ≤ S1024.size a
  h_S1024 : 0 < S1024.numel
  dot_S1024x128_S128x512_S1024x512_1_0_0_1_n_n_wf : DotDims.WF S1024x128 S128x512 S1024x512 [1] [0] [0] [1] [] []
  dot_S1024x512_S512x512_S1024x512_1_0_0_1_n_n_wf : DotDims.WF S1024x512 S512x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .bf16 = 32 ∨ (Rect.block (s := S128x512) S128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .bf16 = 32 ∨ (Rect.block (s := S512x128) S512x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x512.size a ≤ S128x512.size a
  hwx0_7 : ∀ i : grid0.Coords, EltTy.bits .bf16 = 32 ∨ (Rect.block (s := S128x512) S128x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x128.size a ≤ S512x128.size a
  hwx0_11 : ∀ i : grid0.Coords, EltTy.bits .bf16 = 32 ∨ (Rect.block (s := S512x128) S512x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x256.size a ≤ S65536x256.size a
  hwx0_13 : ∀ i : grid0.Coords, EltTy.bits .f32 = 32 ∨ (Rect.block (s := S65536x256) S1024x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024.size a ≤ S65536.size a
  hwx0_14 : ∀ i : grid0.Coords, EltTy.bits .f32 = 32 ∨ (Rect.block (s := S65536) S1024.size (cc0_transform_14 i) (hinb0_14 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S512x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12_0) S1024x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v12_1) S1024.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S65536x256 : Shape := ⟨2, ![65536, 256]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S65536x128 : Shape := ⟨2, ![65536, 128]⟩
abbrev S65536x512 : Shape := ⟨2, ![65536, 512]⟩
abbrev S1x512 : Shape := ⟨2, ![1, 512]⟩
abbrev S_ : Shape := ⟨0, ![]⟩
abbrev S1x128 : Shape := ⟨2, ![1, 128]⟩
abbrev S65536 : Shape := ⟨1, ![65536]⟩

abbrev nBuf : Space → Nat
  | .hbm => 58
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S128x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x128, .f32⟩
  | .hbm, ⟨6, _⟩ => ⟨S128, .f32⟩
  | .hbm, ⟨7, _⟩ => ⟨S128x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x128, .f32⟩
  | .hbm, ⟨12, _⟩ => ⟨S128, .f32⟩
  | .hbm, ⟨13, _⟩ => ⟨S65536x128, .f32⟩
  | .hbm, ⟨14, _⟩ => ⟨S65536x128, .f32⟩
  | .hbm, ⟨15, _⟩ => ⟨S65536x512, .f32⟩
  | .hbm, ⟨16, _⟩ => ⟨S1x512, .f32⟩
  | .hbm, ⟨17, _⟩ => ⟨S65536x512, .f32⟩
  | .hbm, ⟨18, _⟩ => ⟨S65536x512, .f32⟩
  | .hbm, ⟨19, _⟩ => ⟨S_, .f32⟩
  | .hbm, ⟨20, _⟩ => ⟨S65536x512, .f32⟩
  | .hbm, ⟨21, _⟩ => ⟨S65536x512, .f32⟩
  | .hbm, ⟨22, _⟩ => ⟨S65536x512, .f32⟩
  | .hbm, ⟨23, _⟩ => ⟨S1x512, .f32⟩
  | .hbm, ⟨24, _⟩ => ⟨S65536x512, .f32⟩
  | .hbm, ⟨25, _⟩ => ⟨S65536x512, .f32⟩
  | .hbm, ⟨26, _⟩ => ⟨S_, .f32⟩
  | .hbm, ⟨27, _⟩ => ⟨S65536x512, .f32⟩
  | .hbm, ⟨28, _⟩ => ⟨S65536x512, .f32⟩
  | .hbm, ⟨29, _⟩ => ⟨S65536x128, .f32⟩
  | .hbm, ⟨30, _⟩ => ⟨S1x128, .f32⟩
  | .hbm, ⟨31, _⟩ => ⟨S65536x128, .f32⟩
  | .hbm, ⟨32, _⟩ => ⟨S65536x128, .f32⟩
  | .hbm, ⟨33, _⟩ => ⟨S65536x128, .f32⟩
  | .hbm, ⟨34, _⟩ => ⟨S65536x512, .f32⟩
  | .hbm, ⟨35, _⟩ => ⟨S1x512, .f32⟩
  | .hbm, ⟨36, _⟩ => ⟨S65536x512, .f32⟩
  | .hbm, ⟨37, _⟩ => ⟨S65536x512, .f32⟩
  | .hbm, ⟨38, _⟩ => ⟨S_, .f32⟩
  | .hbm, ⟨39, _⟩ => ⟨S65536x512, .f32⟩
  | .hbm, ⟨40, _⟩ => ⟨S65536x512, .f32⟩
  | .hbm, ⟨41, _⟩ => ⟨S65536x512, .f32⟩
  | .hbm, ⟨42, _⟩ => ⟨S1x512, .f32⟩
  | .hbm, ⟨43, _⟩ => ⟨S65536x512, .f32⟩
  | .hbm, ⟨44, _⟩ => ⟨S65536x512, .f32⟩
  | .hbm, ⟨45, _⟩ => ⟨S_, .f32⟩
  | .hbm, ⟨46, _⟩ => ⟨S65536x512, .f32⟩
  | .hbm, ⟨47, _⟩ => ⟨S65536x512, .f32⟩
  | .hbm, ⟨48, _⟩ => ⟨S65536x128, .f32⟩
  | .hbm, ⟨49, _⟩ => ⟨S1x128, .f32⟩
  | .hbm, ⟨50, _⟩ => ⟨S65536x128, .f32⟩
  | .hbm, ⟨51, _⟩ => ⟨S65536x128, .f32⟩
  | .hbm, ⟨52, _⟩ => ⟨S65536x128, .f32⟩
  | .hbm, ⟨53, _⟩ => ⟨S65536x128, .f32⟩
  | .hbm, ⟨54, _⟩ => ⟨S65536x128, .f32⟩
  | .hbm, ⟨55, _⟩ => ⟨S_, .f32⟩
  | .hbm, ⟨56, _⟩ => ⟨S65536, .f32⟩
  | .hbm, ⟨57, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_cst : Ref sig .tc := ⟨.hbm, 19, rfl⟩
abbrev main_call0_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_cst : Ref sig .tc := ⟨.hbm, 26, rfl⟩
abbrev main_call1_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call2_cst : Ref sig .tc := ⟨.hbm, 38, rfl⟩
abbrev main_call2_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call3_cst : Ref sig .tc := ⟨.hbm, 45, rfl⟩
abbrev main_call3_v0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]

class Facts₀ : Prop where
  slices_S65536x256_S65536x128_0_0 : S65536x256.Slices ![0, 0] S65536x128
  slices_S65536x256_S65536x128_0_128 : S65536x256.Slices ![0, 128] S65536x128
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  reducesTo_S65536x128_S65536_d1 : S65536x128.ReducesTo [1] S65536
  h_S_ : 0 < S_.numel
  concatenates_S65536x128_S65536x128_S65536x256_d1 : Shape.Concatenates [S65536x128, S65536x128] S65536x256 1
  dot_S65536x128_S128x512_S65536x512_1_0_0_1_n_n_wf : DotDims.WF S65536x128 S128x512 S65536x512 [1] [0] [0] [1] [] []
  dot_S65536x512_S512x512_S65536x512_1_0_0_1_n_n_wf : DotDims.WF S65536x512 S512x512 S65536x512 [1] [0] [0] [1] [] []
  dot_S65536x512_S512x128_S65536x128_1_0_0_1_n_n_wf : DotDims.WF S65536x512 S512x128 S65536x128 [1] [0] [0] [1] [] []

variable [Facts₀]

def dot_S65536x128_S128x512_S65536x512_1_0_0_1_n_n : DotDims S65536x128 S128x512 S65536x512 where
  lhsContracting := [1]
  rhsContracting := [0]
  lhsNonContracting := [0]
  rhsNonContracting := [1]
  lhsBatch := []
  rhsBatch := []
  wf := dot_S65536x128_S128x512_S65536x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x512_S512x128_S65536x128_1_0_0_1_n_n : DotDims S65536x512 S512x128 S65536x128 where
  lhsContracting := [1]
  rhsContracting := [0]
  lhsNonContracting := [0]
  rhsNonContracting := [1]
  lhsBatch := []
  rhsBatch := []
  wf := dot_S65536x512_S512x128_S65536x128_1_0_0_1_n_n_wf

class Facts : Prop extends Facts₀ where

variable [Facts]
-- ==== Proof.LibDense.lean ====
/-
  AN AFFINE LAYER READ AT AN ENTRY, at the extended reals. For a row-major product of an [M, K] matrix with a [K, N]
  matrix (one contracted axis, no batch axis) the contraction index is its one coordinate `k : Fin K`, and the entry
  (r, c) of the product is `∑ k, X (r, k) * W (k, c)`, whether the product is a block product into a zero accumulator or
  the host's dot product. An affine layer adds the bias row's entry of column c; the leaky rectifier keeps a non-negative
  entry and scales a negative one by the f32 word of 0.2.

  * `plain_dot_apply`, `plain_matmul_apply`: both products as that sum over `Fin K`;
  * `affine`, `leaky`, `denseLeaky`: the layer entry by entry; `affine_congr`: it only looks at row r, column c and
    the bias entry of column c, so a block of rows of X gives the same entries as the whole X at the block's rows;
  * `pay_affine`, `leaky_vec`: a block product plus a bias row repeated down the block, then the rectifier, as a vector
    unit writes them; `host_affine`, `leaky_host`: the same as host operations write them (the bias vector made a row
    and then repeated; the rectifier's constants as rank-0 splats).

  Every statement holds at any M, K, N (N = 1 included: a column of extent one has only the index 0).
-/
import Idealize.ShloMosaic.PureOps.Ideal.Laws
import Idealize.ShloMosaic.Lib.ValueIdx
import Idealize.ShloMosaic.Lib.Pipeline.Value

noncomputable section
namespace Cert.Lib.Dense
open Idealize.ShloMosaic
open Idealize.ShloMosaic.ValueIdx

abbrev ce (M K N : Nat) : (DotDims.plain M K N).contr.Idx ≃ Fin K := contrEquiv1 (DotDims.plain M K N) K rfl rfl

theorem plain_lhsIdx (M K N : Nat) (j : (⟨2, ![M, N]⟩ : Shape).Idx) (k : Fin K) :
    (DotDims.plain M K N).lhsIdx j ((ce M K N).symm k) = ix2 (n0 := M) (n1 := K) (j 0) k := by
  funext a; apply Fin.ext
  match a with
  | ⟨0, _⟩ => rfl
  | ⟨1, _⟩ =>
    exact (DotDims.lhsIdx_val_of_single (DotDims.plain M K N) (cl := 1) rfl j _).trans (contrEquiv1_symm_val _ K rfl rfl k)

theorem plain_rhsIdx (M K N : Nat) (j : (⟨2, ![M, N]⟩ : Shape).Idx) (k : Fin K) :
    (DotDims.plain M K N).rhsIdx j ((ce M K N).symm k) = ix2 (n0 := K) (n1 := N) k (j 1) := by
  funext a; apply Fin.ext
  match a with
  | ⟨0, _⟩ =>
    exact (DotDims.rhsIdx_val_of_single (DotDims.plain M K N) (cr := 0) rfl j _).trans (contrEquiv1_symm_val _ K rfl rfl k)
  | ⟨1, _⟩ => rfl

theorem plain_dot_apply (M K N : Nat) (prec : Option ContractPrecision) (sched : HostSchedule)
    (X : FVec Ideal ⟨2, ![M, K]⟩ .f32) (W : FVec Ideal ⟨2, ![K, N]⟩ .f32) (j : (⟨2, ![M, N]⟩ : Shape).Idx) :
    FloatOps.dotGeneral (DotDims.plain M K N) prec sched X W j = ∑ k : Fin K, X (ix2 (j 0) k) * W (ix2 k (j 1)) := by
  rw [Ideal.dotGeneral_apply, ← Equiv.sum_comp (ce M K N).symm]
  exact Finset.sum_congr rfl fun k _ => by rw [plain_lhsIdx, plain_rhsIdx]

theorem plain_matmul_apply (M K N : Nat) (prec : Option ContractPrecision)
    (X : FVec Ideal ⟨2, ![M, K]⟩ .f32) (W : FVec Ideal ⟨2, ![K, N]⟩ .f32) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (ce M K N).symm]
  exact Finset.sum_congr rfl fun k _ => by rw [plain_lhsIdx, plain_rhsIdx]

/-- One entry of an affine layer: row `j 0` of `X` against column `j 1` of `W`, plus the bias row's entry of that column. -/
def affine {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun j => (∑ k : Fin K, X (ix2 (j 0) k) * W (ix2 k (j 1))) + B (ix2 0 (j 1))

/-- The leaky rectifier with slope the f32 word of 0.2, as both programs spell it: `y` where `y ≥ 0`, else the slope times `y`. -/
def leaky (y : EReal) : EReal :=
  Scalar.select (FloatOps.cmpf (F := Ideal) (φ := .f32) .oge y (Scalar.ofBits .f32 0x00000000#32)) y
    (FloatOps.mulf (F := Ideal) (φ := .f32) (Scalar.ofBits .f32 0x3E4CCCCD#32) y)

def denseLeaky {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := fun j => leaky (affine X W B j)

theorem affine_congr {Mb M K N : Nat} (xb : (⟨2, ![Mb, K]⟩ : Shape).Idx → EReal) (X : (⟨2, ![M, K]⟩ : Shape).Idx → EReal)
    (wb W : (⟨2, ![K, N]⟩ : Shape).Idx → EReal) (bb B : (⟨2, ![1, N]⟩ : Shape).Idx → EReal)
    (y : (⟨2, ![Mb, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1)))
    (hb : bb (ix2 0 (y 1)) = B (ix2 0 (i 1))) : affine xb wb bb y = affine X W B i := by
  unfold affine
  rw [hb]
  exact congrArg (· + _) (Finset.sum_congr rfl fun k _ => by rw [hx k, hw k])

/-- The kernel body's value at a block index: the block product into a zero accumulator plus the broadcast bias row. -/
theorem pay_affine {M K N : Nat} (x : FVec Ideal ⟨2, ![M, K]⟩ .f32) (w : FVec Ideal ⟨2, ![K, N]⟩ .f32) (b : FVec Ideal ⟨2, ![1, N]⟩ .f32)
    (sx : (⟨2, ![M, K]⟩ : Shape).ShapeCasts ⟨2, ![M, K]⟩) (sb : (⟨2, ![1, N]⟩ : Shape).ShapeCasts ⟨2, ![1, N]⟩)
    (bt : (⟨2, ![1, N]⟩ : Shape).Broadcasts ⟨2, ![M, N]⟩) (y : (⟨2, ![M, N]⟩ : Shape).Idx) :
    addf (matmul (DotDims.plain M K N) none (shapeCast ⟨2, ![M, K]⟩ x sx) w (constant ⟨2, ![M, N]⟩ .f32 0x00000000#32))
        (broadcastTo ⟨2, ![M, N]⟩ (shapeCast ⟨2, ![1, N]⟩ b sb) bt) y = affine x w b y := by
  rw [shapeCast_self, shapeCast_self]
  show FloatOps.matmul (DotDims.plain M K N) none x w (constant _ .f32 0x00000000#32) y + broadcastTo ⟨2, ![M, N]⟩ b bt y = _
  rw [plain_matmul_apply, broadcastTo_apply b bt y (ix2 0 (y 1))]
  · rfl
  · intro a
    match a with
    | ⟨0, _⟩ => simp
    | ⟨1, _⟩ =>
      show (y 1).val = if N = 1 then 0 else (y 1).val
      split_ifs with h
      · have := (y 1).isLt; simp at this; omega
      · rfl

/-- The kernel's rectifier read at an index. -/
theorem leaky_vec {S : Shape} (Y : FVec Ideal S .f32) (y : S.Idx) :
    select (cmpf .oge Y (broadcast S (Scalar.ofBits .f32 0x00000000#32))) Y (mulf (broadcast S (Scalar.ofBits .f32 0x3E4CCCCD#32)) Y) y = leaky (Y y) := rfl

/-- A splat of a rank-0 constant reads as the constant's value everywhere. -/
theorem splat0_apply {S : Shape} (w : BitVec 32) (e : (⟨0, ![]⟩ : Shape).BroadcastsInDim S (![] : Fin 0 → Fin S.rank)) (j : S.Idx) :
    broadcastInDim S ![] e (constant (F := Ideal) ⟨0, ![]⟩ .f32 w) j = Scalar.ofBits .f32 w := by
  rw [broadcastInDim_apply _ e _ j (fun a => a.elim0) (fun a => a.elim0)]
  rfl

/-- The host's rectifier read at an index. -/
theorem leaky_host {S : Shape} (Y : FVec Ideal S .f32) (e e' : (⟨0, ![]⟩ : Shape).BroadcastsInDim S (![] : Fin 0 → Fin S.rank)) (j : S.Idx) :
    select (cmpf .oge Y (broadcastInDim S ![] e (constant ⟨0, ![]⟩ .f32 0x00000000#32))) Y
      (mulf (broadcastInDim S ![] e' (constant ⟨0, ![]⟩ .f32 0x3E4CCCCD#32)) Y) j = leaky (Y j) := by
  show Scalar.select (FloatOps.cmpf .oge (Y j) (broadcastInDim S ![] e (constant (F := Ideal) ⟨0, ![]⟩ .f32 0x00000000#32) j)) (Y j)
      (FloatOps.mulf (broadcastInDim S ![] e' (constant (F := Ideal) ⟨0, ![]⟩ .f32 0x3E4CCCCD#32) j) (Y j)) = _
  rw [splat0_apply, splat0_apply]
  rfl

/-- The host's affine layer at an index: the dot product plus the bias vector, first made a row [1, N] and then
    repeated down the rows, is the affine layer over the bias reshaped to a row. -/
theorem host_affine {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (sc : (⟨1, ![N]⟩ : Shape).ShapeCasts ⟨2, ![1, N]⟩) (j : (⟨2, ![M, N]⟩ : Shape).Idx) :
    addf (Host.dotGeneral (DotDims.plain M K N) none X W)
        (broadcastInDim ⟨2, ![M, N]⟩ ![0, 1] e2 (broadcastInDim ⟨2, ![1, N]⟩ ![1] e1 b)) j
      = affine X W (shapeCast ⟨2, ![1, N]⟩ b sc) j := by
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1)),
    shapeCast_addUnit_apply ![N] b sc (ix2 0 (j 1))]
  · refine congrArg b (funext fun a => ?_)
    match a with
    | ⟨0, _⟩ => rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- A bias vector as the one row of a [1, N] matrix. -/
def biasRow {N : Nat} (b : (⟨1, ![N]⟩ : Shape).Idx → EReal) : (⟨2, ![1, N]⟩ : Shape).Idx → EReal := fun i => b (ix1 (i 1))

/-- Reshaping a vector [N] to [1, N] gives that row. -/
theorem shapeCast_row {N : Nat} (b : FVec Ideal ⟨1, ![N]⟩ .f32) (sc : (⟨1, ![N]⟩ : Shape).ShapeCasts ⟨2, ![1, N]⟩) :
    shapeCast ⟨2, ![1, N]⟩ b sc = biasRow b := by
  funext i
  rw [shapeCast_addUnit_apply ![N] b sc i]
  refine congrArg b (funext fun a => ?_)
  match a with
  | ⟨0, _⟩ => rfl

/-- The host's affine layer, whole: its entries are `affine` over the bias row. -/
theorem host_affine_row {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) :
    addf (Host.dotGeneral (DotDims.plain M K N) none X W)
        (broadcastInDim ⟨2, ![M, N]⟩ ![0, 1] e2 (broadcastInDim ⟨2, ![1, N]⟩ ![1] e1 b)) = affine X W (biasRow b) := by
  funext j
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1))]
  · rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- The host's rectified affine layer, whole, is `denseLeaky` over the bias row. -/
theorem host_denseLeaky {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (e e' : (⟨0, ![]⟩ : Shape).BroadcastsInDim ⟨2, ![M, N]⟩ (![] : Fin 0 → Fin 2)) :
    select (cmpf .oge (addf (Host.dotGeneral (DotDims.plain M K N) none X W)
          (broadcastInDim ⟨2, ![M, N]⟩ ![0, 1] e2 (broadcastInDim ⟨2, ![1, N]⟩ ![1] e1 b)))
        (broadcastInDim ⟨2, ![M, N]⟩ ![] e (constant ⟨0, ![]⟩ .f32 0x00000000#32)))
      (addf (Host.dotGeneral (DotDims.plain M K N) none X W)
          (broadcastInDim ⟨2, ![M, N]⟩ ![0, 1] e2 (broadcastInDim ⟨2, ![1, N]⟩ ![1] e1 b)))
      (mulf (broadcastInDim ⟨2, ![M, N]⟩ ![] e' (constant ⟨0, ![]⟩ .f32 0x3E4CCCCD#32))
        (addf (Host.dotGeneral (DotDims.plain M K N) none X W)
          (broadcastInDim ⟨2, ![M, N]⟩ ![0, 1] e2 (broadcastInDim ⟨2, ![1, N]⟩ ![1] e1 b))))
      = denseLeaky X W (biasRow b) := by
  rw [host_affine_row]
  funext j
  exact leaky_host _ e e' j

/-- An affine layer with no rectifier, named like its rectified sibling. -/
def dense {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := affine X W B

end Cert.Lib.Dense
-- ==== Proof.LibRectify.lean ====
/-
  The rectifier beside an affine layer, entry by entry at the extended reals, as a vector unit writes it (the maximum
  with a splat of the zero word) and as host operations write it (the maximum with a rank-0 zero constant repeated
  over the shape): both are `max y 0`-by-the-zero-word at every entry.
-/
import proofs.«178211_j16870631539268_1_alg».proof.Proof.LibDense

noncomputable section
namespace Cert.Lib.Rectify
open Idealize.ShloMosaic
open Idealize.ShloMosaic.ValueIdx
open Cert.Lib.Dense

/-- The rectifier at one entry: the maximum with the f32 zero word's value. -/
def relu1 (y : EReal) : EReal :=
  FloatOps.maximumf (F := Ideal) (φ := .f32) y (Scalar.ofBits .f32 0x00000000#32)

/-- The rectifier over an array of entries. -/
def relu {S : Shape} (Y : S.Idx → EReal) : S.Idx → EReal := fun j => relu1 (Y j)

/-- The vector unit's rectifier: the maximum with a splat of the zero word. -/
theorem relu_vec {S : Shape} (Y : FVec Ideal S .f32) :
    maximumf Y (broadcast S (Scalar.ofBits .f32 0x00000000#32)) = relu Y := rfl

/-- The host's rectifier: the maximum with the rank-0 zero constant repeated over the shape. -/
theorem relu_host {S : Shape} (Y : FVec Ideal S .f32) (e : (⟨0, ![]⟩ : Shape).BroadcastsInDim S (![] : Fin 0 → Fin S.rank)) :
    maximumf Y (broadcastInDim S ![] e (constant ⟨0, ![]⟩ .f32 0x00000000#32)) = relu Y := by
  funext j
  show FloatOps.maximumf (Y j) (broadcastInDim S ![] e (constant (F := Ideal) ⟨0, ![]⟩ .f32 0x00000000#32) j) = _
  rw [splat0_apply]
  rfl

end Cert.Lib.Rectify
-- ==== Proof.LibRowReduce.lean ====
/-
  Reductions along the rows of a matrix, read at a row written by its coordinate.

  For an `[a, b]` array reduced over its second axis the reduced index `i` with column `k` put back is `(i, k)`;
  so the vector unit's sum of a row is the sum over the columns of that row, its maximum the fold of `max` over them
  from the accumulator's value, and the host's reduce with a maximum body the same fold from the initial value.
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {a b : ℕ} {φ : FTy}

/-- The reduced index `i` with column `k` put back on the second axis is `(i, k)`. -/
theorem lift_row (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- The vector unit's sum over the second axis, at row `i`: the sum over the columns of that row. -/
theorem multiReduction_add_row (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

/-- The vector unit's maximum over the second axis, at row `i`: the fold of `max` over the columns of that row. -/
theorem multiReduction_maximumf_row (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  exact congrArg (fun f => Finset.fold max (Ideal.ofBits φ acc) f (Finset.univ : Finset (Fin b)))
    (funext fun k => congrArg src (lift_row h i k))

/-- The host's reduce with a maximum body over the second axis, at row `i`: the fold of `max` from the initial value
    over the columns of that row. -/
theorem hostReduce_maximumf_row {u : Shape} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (i : Fin a) :
    Host.reduce FloatOps.maximumf x init h' hu (ix1 i)
      = (Finset.univ : Finset (Fin b)).fold max (init (Shape.Idx.first hu)) (fun k => x (ix2 i k)) := by
  rw [Host.reduce_eq_fold_single FloatOps.maximumf x init h' h hu]
  exact congrArg (fun f => Finset.fold max (init (Shape.Idx.first hu)) f (Finset.univ : Finset (Fin b)))
    (funext fun k => congrArg x (lift_row h i k))

end Cert.LibRowReduce

end
-- ==== Proof.Coupling.lean ====
/-
  AN AFFINE COUPLING LAYER, ROW BY ROW, at the extended reals.

  A row x of 256 numbers is split into its first 128 entries (the condition, kept as they are) and its last 128
  (the part that is moved). Two three-layer perceptrons read the condition: s = tanh of the first one's output and t the
  second one's output; entry j of the moved part becomes x[128 + j] * exp s[j] + t[j], and the row's log-determinant is
  the sum of s over its 128 entries.

  Every entry of a perceptron's output at row r looks at row r of its input only (`mlp_row`): so a tile of rows gives,
  row for row, what the whole matrix gives (`coupled_row`, `logdet_row`). That is the whole bridge between a program
  that works tile by tile and one that works on the whole matrix at once.

  The two spellings of one layer — a block product into a zero accumulator plus a bias row repeated down the block, and
  a dot product plus a bias vector made a row and repeated — are both `affine` (`layerV_eq`, and LibDense's
  `host_affine_row`); slicing the first 128 columns off and putting them back beside a new right half is `joined`.
-/
import proofs.«178211_j16870631539268_1_alg».proof.Proof.LibDense
import proofs.«178211_j16870631539268_1_alg».proof.Proof.LibRectify
import proofs.«178211_j16870631539268_1_alg».proof.Proof.LibRowReduce

noncomputable section
namespace Cert.Coupling
open Idealize.ShloMosaic Idealize.ShloMosaic.ValueIdx
open Cert.Lib.Dense Cert.Lib.Rectify

/-- An [a, b] matrix of extended reals, entry by entry. -/
abbrev Mat (a b : Nat) := (⟨2, ![a, b]⟩ : Shape).Idx → EReal

/-- The three-layer perceptron on the rows of `X`: affine, rectifier, affine, rectifier, affine. -/
def mlp {M : Nat} (X : Mat M 128) (W1 : Mat 128 512) (B1 : Mat 1 512) (W2 : Mat 512 512) (B2 : Mat 1 512)
    (W3 : Mat 512 128) (B3 : Mat 1 128) : Mat M 128 :=
  affine (relu (affine (relu (affine X W1 B1)) W2 B2)) W3 B3

/-- Row `p` of the perceptron's output only looks at row `p` of its input. -/
theorem mlp_row {Mb M : Nat} (xb : Mat Mb 128) (X : Mat M 128) (W1 : Mat 128 512) (B1 : Mat 1 512) (W2 : Mat 512 512)
    (B2 : Mat 1 512) (W3 : Mat 512 128) (B3 : Mat 1 128) (p : Fin Mb) (r : Fin M)
    (hx : ∀ k : Fin 128, xb (ix2 p k) = X (ix2 r k)) (q : Fin 128) :
    mlp xb W1 B1 W2 B2 W3 B3 (ix2 p q) = mlp X W1 B1 W2 B2 W3 B3 (ix2 r q) := by
  unfold mlp
  refine affine_congr _ _ _ _ _ _ (ix2 p q) (ix2 r q) (fun k => ?_) (fun _ => rfl) rfl
  show relu1 (affine (relu (affine xb W1 B1)) W2 B2 (ix2 p k)) = relu1 (affine (relu (affine X W1 B1)) W2 B2 (ix2 r k))
  refine congrArg relu1 (affine_congr _ _ _ _ _ _ (ix2 p k) (ix2 r k) (fun k' => ?_) (fun _ => rfl) rfl)
  show relu1 (affine xb W1 B1 (ix2 p k')) = relu1 (affine X W1 B1 (ix2 r k'))
  exact congrArg relu1 (affine_congr _ _ _ _ _ _ (ix2 p k') (ix2 r k') hx (fun _ => rfl) rfl)

/-- The first 128 columns: the condition. -/
def cond {M : Nat} (X : Mat M 256) : Mat M 128 := fun j => X (ix2 (j 0) ⟨(j 1).val, by have := idx2_lt1 j; omega⟩)
/-- The last 128 columns: the part the layer moves. -/
def rest {M : Nat} (X : Mat M 256) : Mat M 128 := fun j => X (ix2 (j 0) ⟨128 + (j 1).val, by have := idx2_lt1 j; omega⟩)

/-- The moved part: x * exp (tanh s) + t, with s and t the two perceptrons' outputs on the condition. -/
def shifted {M : Nat} (X : Mat M 256) (S T : Mat M 128) : Mat M 128 := fun j =>
  rest X j * Ideal.exp (Ideal.tanh (S j)) + T j

/-- The first 128 columns of `X` beside a new right half `Y`. -/
def joined {M : Nat} (X : Mat M 256) (Y : Mat M 128) : Mat M 256 := fun i =>
  if (i 1).val < 128 then X i else Y (ix2 (i 0) ⟨(i 1).val - 128, by have := idx2_lt1 i; omega⟩)

/-- The layer's output matrix. -/
def coupled {M : Nat} (X : Mat M 256) (Ws1 : Mat 128 512) (Bs1 : Mat 1 512) (Ws2 : Mat 512 512) (Bs2 : Mat 1 512)
    (Ws3 : Mat 512 128) (Bs3 : Mat 1 128) (Wt1 : Mat 128 512) (Bt1 : Mat 1 512) (Wt2 : Mat 512 512) (Bt2 : Mat 1 512)
    (Wt3 : Mat 512 128) (Bt3 : Mat 1 128) : Mat M 256 :=
  joined X (shifted X (mlp (cond X) Ws1 Bs1 Ws2 Bs2 Ws3 Bs3) (mlp (cond X) Wt1 Bt1 Wt2 Bt2 Wt3 Bt3))

/-- The layer's log-determinant, one number a row: the sum of tanh of the first perceptron's outputs. -/
def logdet {M : Nat} (X : Mat M 256) (Ws1 : Mat 128 512) (Bs1 : Mat 1 512) (Ws2 : Mat 512 512) (Bs2 : Mat 1 512)
    (Ws3 : Mat 512 128) (Bs3 : Mat 1 128) : (⟨1, ![M]⟩ : Shape).Idx → EReal := fun i =>
  ∑ k : Fin 128, Ideal.tanh (mlp (cond X) Ws1 Bs1 Ws2 Bs2 Ws3 Bs3 (ix2 (i 0) k))

section rows
variable {Mb M : Nat} (xb : Mat Mb 256) (X : Mat M 256) (p : Fin Mb) (r : Fin M)
  (hx : ∀ q : Fin 256, xb (ix2 p q) = X (ix2 r q))
include hx

theorem cond_row (k : Fin 128) : cond xb (ix2 p k) = cond X (ix2 r k) := hx _
theorem rest_row (k : Fin 128) : rest xb (ix2 p k) = rest X (ix2 r k) := hx _

/-- A tile's row `p` that is the matrix's row `r` gives the matrix's output row `r`. -/
theorem coupled_row (Ws1 : Mat 128 512) (Bs1 : Mat 1 512) (Ws2 : Mat 512 512) (Bs2 : Mat 1 512)
    (Ws3 : Mat 512 128) (Bs3 : Mat 1 128) (Wt1 : Mat 128 512) (Bt1 : Mat 1 512) (Wt2 : Mat 512 512) (Bt2 : Mat 1 512)
    (Wt3 : Mat 512 128) (Bt3 : Mat 1 128) (q : Fin 256) :
    coupled xb Ws1 Bs1 Ws2 Bs2 Ws3 Bs3 Wt1 Bt1 Wt2 Bt2 Wt3 Bt3 (ix2 p q)
      = coupled X Ws1 Bs1 Ws2 Bs2 Ws3 Bs3 Wt1 Bt1 Wt2 Bt2 Wt3 Bt3 (ix2 r q) := by
  unfold coupled joined
  show (if q.val < 128 then xb (ix2 p q) else shifted xb _ _ (ix2 p ⟨q.val - 128, _⟩))
    = (if q.val < 128 then X (ix2 r q) else shifted X _ _ (ix2 r ⟨q.val - 128, _⟩))
  split_ifs with h
  · exact hx q
  · unfold shifted
    rw [rest_row xb X p r hx, mlp_row (cond xb) (cond X) Ws1 Bs1 Ws2 Bs2 Ws3 Bs3 p r (cond_row xb X p r hx),
      mlp_row (cond xb) (cond X) Wt1 Bt1 Wt2 Bt2 Wt3 Bt3 p r (cond_row xb X p r hx)]

theorem logdet_row (Ws1 : Mat 128 512) (Bs1 : Mat 1 512) (Ws2 : Mat 512 512) (Bs2 : Mat 1 512)
    (Ws3 : Mat 512 128) (Bs3 : Mat 1 128) :
    logdet xb Ws1 Bs1 Ws2 Bs2 Ws3 Bs3 (ix1 p) = logdet X Ws1 Bs1 Ws2 Bs2 Ws3 Bs3 (ix1 r) := by
  unfold logdet
  exact Finset.sum_congr rfl fun k _ => by
    show Ideal.tanh (mlp (cond xb) Ws1 Bs1 Ws2 Bs2 Ws3 Bs3 (ix2 p k)) = Ideal.tanh (mlp (cond X) Ws1 Bs1 Ws2 Bs2 Ws3 Bs3 (ix2 r k))
    rw [mlp_row (cond xb) (cond X) Ws1 Bs1 Ws2 Bs2 Ws3 Bs3 p r (cond_row xb X p r hx)]

end rows

/-! ## The operations as the two programs spell them -/

/-- A change of float format does nothing to an extended real. -/
theorem truncf_id {S : Shape} {φ ψ : FTy} (v : FVec Ideal S φ) (h : ψ.bits < φ.bits) : (truncf ψ v h : S.Idx → EReal) = v := rfl

/-- One layer as a vector unit writes it: the block product of `X` with the loaded weights into a zero accumulator,
    plus the loaded bias row repeated down the block. -/
def layerV {M K N : Nat} {φ₁ φ₂ : FTy} (d : DotDims ⟨2, ![M, K]⟩ ⟨2, ![K, N]⟩ ⟨2, ![M, N]⟩) (X : FVec Ideal ⟨2, ![M, K]⟩ φ₁)
    (w : FVec Ideal ⟨2, ![K, N]⟩ φ₂) (b : FVec Ideal ⟨2, ![1, N]⟩ .f32)
    (sw : (⟨2, ![K, N]⟩ : Shape).ShapeCasts ⟨2, ![K, N]⟩) (sb : (⟨2, ![1, N]⟩ : Shape).ShapeCasts ⟨2, ![1, N]⟩)
    (bt : (⟨2, ![1, N]⟩ : Shape).Broadcasts ⟨2, ![M, N]⟩) : FVec Ideal ⟨2, ![M, N]⟩ .f32 :=
  addf (matmul d none X (shapeCast ⟨2, ![K, N]⟩ w sw) (constant ⟨2, ![M, N]⟩ .f32 0x00000000#32))
    (broadcastTo ⟨2, ![M, N]⟩ (shapeCast ⟨2, ![1, N]⟩ b sb) bt)

/-- The block product at an entry is the sum over the contracted coordinate, whatever the operands' formats. -/
theorem matmul_plain_apply {M K N : Nat} {φ₁ φ₂ : FTy} (X : FVec Ideal ⟨2, ![M, K]⟩ φ₁) (W : FVec Ideal ⟨2, ![K, N]⟩ φ₂)
    (j : (⟨2, ![M, N]⟩ : Shape).Idx) :
    FloatOps.matmul (DotDims.plain M K N) none X W (constant _ .f32 0x00000000#32) j = ∑ k : Fin K, X (ix2 (j 0) k) * W (ix2 k (j 1)) := by
  rw [Ideal.matmul_constant_zero_apply, ← Equiv.sum_comp (ce M K N).symm]
  exact Finset.sum_congr rfl fun k _ => by rw [plain_lhsIdx, plain_rhsIdx]

theorem layerV_eq {M K N : Nat} {φ₁ φ₂ : FTy} (d : DotDims ⟨2, ![M, K]⟩ ⟨2, ![K, N]⟩ ⟨2, ![M, N]⟩) (hd : d = DotDims.plain M K N)
    (X : FVec Ideal ⟨2, ![M, K]⟩ φ₁) (w : FVec Ideal ⟨2, ![K, N]⟩ φ₂) (b : FVec Ideal ⟨2, ![1, N]⟩ .f32)
    (sw : (⟨2, ![K, N]⟩ : Shape).ShapeCasts ⟨2, ![K, N]⟩) (sb : (⟨2, ![1, N]⟩ : Shape).ShapeCasts ⟨2, ![1, N]⟩)
    (bt : (⟨2, ![1, N]⟩ : Shape).Broadcasts ⟨2, ![M, N]⟩) : layerV d X w b sw sb bt = affine X w b := by
  subst hd
  funext y
  unfold layerV
  rw [shapeCast_self, shapeCast_self]
  show FloatOps.matmul (DotDims.plain M K N) none X w (constant _ .f32 0x00000000#32) y + broadcastTo ⟨2, ![M, N]⟩ b bt y = _
  rw [matmul_plain_apply, broadcastTo_apply b bt y (ix2 0 (y 1))]
  · rfl
  · intro a
    match a with
    | ⟨0, _⟩ => simp
    | ⟨1, _⟩ =>
      show (y 1).val = if N = 1 then 0 else (y 1).val
      split_ifs with h
      · have := (y 1).isLt; simp at this; omega
      · rfl

/-- One layer as host operations write it. -/
def layerH {M K N : Nat} (d : DotDims ⟨2, ![M, K]⟩ ⟨2, ![K, N]⟩ ⟨2, ![M, N]⟩) (X : FVec Ideal ⟨2, ![M, K]⟩ .f32)
    (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) : FVec Ideal ⟨2, ![M, N]⟩ .f32 :=
  addf (Host.dotGeneral d none X W) (broadcastInDim ⟨2, ![M, N]⟩ ![0, 1] e2 (broadcastInDim ⟨2, ![1, N]⟩ ![1] e1 b))

theorem layerH_eq {M K N : Nat} (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) :
    layerH d X W b e1 e2 = affine X W (biasRow b) := by
  subst hd
  exact host_affine_row X W b e1 e2

/-- The rectifier of a vector unit, with the name of the whole-array rectifier. -/
theorem reluV_eq {S : Shape} (Y : FVec Ideal S .f32) : maximumf Y (broadcast S (Scalar.ofBits .f32 0x00000000#32)) = relu Y := rfl

/-- Slicing the first 128 columns off `X` and putting them back beside `Y` is `joined X Y`. -/
theorem joined_apply {M : Nat} (X : Mat M 256) (Y : Mat M 128)
    (hs0 : (⟨2, ![M, 256]⟩ : Shape).Slices ![0, 0] ⟨2, ![M, 128]⟩)
    (hc : Shape.Concatenates [⟨2, ![M, 128]⟩, ⟨2, ![M, 128]⟩] ⟨2, ![M, 256]⟩ 1) :
    concatenate ⟨2, ![M, 256]⟩ 1 [⟨⟨2, ![M, 128]⟩, extractStridedSlice ⟨2, ![M, 128]⟩ ![0, 0] X hs0⟩, ⟨⟨2, ![M, 128]⟩, Y⟩] hc
      = joined X Y := by
  funext i
  unfold joined
  split_ifs with h
  · refine (concatenate_pair_apply_left (s₁ := ⟨2, ![M, 128]⟩) (s₂ := ⟨2, ![M, 128]⟩) (1 : Fin 2) _ _ hc i rfl
      (ix2 (n0 := M) (n1 := 128) (i 0) (⟨(i 1).val, h⟩ : Fin 128)) (fun b => ?_)).trans ?_
    · match b with
      | ⟨0, _⟩ => rfl
      | ⟨1, _⟩ => rfl
    · refine extractStridedSlice_apply _ X hs0 _ i (fun a => ?_)
      match a with
      | ⟨0, _⟩ => show (i 0).val = 0 + (i 0).val; omega
      | ⟨1, _⟩ => show (i 1).val = 0 + (i 1).val; omega
  · refine concatenate_pair_apply_right (s₁ := ⟨2, ![M, 128]⟩) (s₂ := ⟨2, ![M, 128]⟩) (1 : Fin 2) _ _ hc i rfl rfl
      (ix2 (n0 := M) (n1 := 128) (i 0) (⟨(i 1).val - 128, by have := idx2_lt1 i; omega⟩ : Fin 128)) (fun b hb => ?_) ?_
    · match b with
      | ⟨0, _⟩ => rfl
      | ⟨1, _⟩ => exact absurd rfl hb
    · show (i 1).val - 128 + 128 = (i 1).val
      omega

/-- The last 128 columns, sliced off. -/
theorem rest_eq {M : Nat} (X : Mat M 256) (hs1 : (⟨2, ![M, 256]⟩ : Shape).Slices ![0, 128] ⟨2, ![M, 128]⟩) :
    extractStridedSlice ⟨2, ![M, 128]⟩ ![0, 128] X hs1 = rest X := by
  funext j
  refine extractStridedSlice_apply _ X hs1 j _ (fun a => ?_)
  match a with
  | ⟨0, _⟩ => show (j 0).val = 0 + (j 0).val; omega
  | ⟨1, _⟩ => show 128 + (j 1).val = 128 + (j 1).val; rfl

/-- The first 128 columns, sliced off. -/
theorem cond_eq {M : Nat} (X : Mat M 256) (hs0 : (⟨2, ![M, 256]⟩ : Shape).Slices ![0, 0] ⟨2, ![M, 128]⟩) :
    extractStridedSlice ⟨2, ![M, 128]⟩ ![0, 0] X hs0 = cond X := by
  funext j
  refine extractStridedSlice_apply _ X hs0 j _ (fun a => ?_)
  match a with
  | ⟨0, _⟩ => show (j 0).val = 0 + (j 0).val; omega
  | ⟨1, _⟩ => show (j 1).val = 0 + (j 1).val; omega

end Cert.Coupling
-- ==== Proof.Payload.lean ====
/-
  WHAT THE BODY STORES, as the coupling layer of the tile it loaded.

  The body loads a tile of 1024 rows of x and the six weight matrices and six bias rows whole. Reading its arithmetic
  at the extended reals, where a change of float format does nothing: the value it stores to the first output is the
  coupling layer's output matrix for that tile (`stored_y`), the value it stores to the second the tile's
  log-determinants (`stored_logdet`).
-/
import proofs.«178211_j16870631539268_1_alg».proof.Proof.Gen.KernelIdeal.Skeleton
import proofs.«178211_j16870631539268_1_alg».proof.Proof.Coupling

noncomputable section
namespace Cert.KernelIdeal.Tile
open Idealize.ShloMosaic Idealize.ShloMosaic.ValueIdx
open Cert.KernelIdeal Cert.KernelIdeal.Gen Cert.Coupling Cert.Lib.Dense Cert.Lib.Rectify

theorem d1_plain : dot_S1024x128_S128x512_S1024x512_1_0_0_1_n_n = DotDims.plain 1024 128 512 := rfl
theorem d2_plain : dot_S1024x512_S512x512_S1024x512_1_0_0_1_n_n = DotDims.plain 1024 512 512 := rfl
theorem d3_plain : dot_S1024x512_S512x128_S1024x128_1_0_0_1_n_n = DotDims.plain 1024 512 128 := rfl

variable (x0 : Vec Ideal S1024x256 .f32) (x1 : Vec Ideal S128x512 .bf16) (x2 : Vec Ideal S1x512 .f32)
  (x3 : Vec Ideal S512x512 .bf16) (x4 : Vec Ideal S1x512 .f32) (x5 : Vec Ideal S512x128 .bf16) (x6 : Vec Ideal S1x128 .f32)
  (x7 : Vec Ideal S128x512 .bf16) (x8 : Vec Ideal S1x512 .f32) (x9 : Vec Ideal S512x512 .bf16) (x10 : Vec Ideal S1x512 .f32)
  (x11 : Vec Ideal S512x128 .bf16) (x12 : Vec Ideal S1x128 .f32)

/-- A perceptron as the body writes it: three layers on the tile's first 128 columns, rectified after the first two. -/
def tower (w1 : Vec Ideal S128x512 .bf16) (b1 : Vec Ideal S1x512 .f32) (w2 : Vec Ideal S512x512 .bf16) (b2 : Vec Ideal S1x512 .f32)
    (w3 : Vec Ideal S512x128 .bf16) (b3 : Vec Ideal S1x128 .f32) : FVec Ideal S1024x128 .f32 :=
  layerV (φ₁ := .bf16) (φ₂ := .bf16) dot_S1024x512_S512x128_S1024x128_1_0_0_1_n_n
    (truncf .bf16 (maximumf (layerV (φ₁ := .bf16) (φ₂ := .bf16) dot_S1024x512_S512x512_S1024x512_1_0_0_1_n_n
      (truncf .bf16 (maximumf (layerV (φ₁ := .bf16) (φ₂ := .bf16) dot_S1024x128_S128x512_S1024x512_1_0_0_1_n_n
        (truncf .bf16 (extractStridedSlice S1024x128 ![0, 0] x0 slices_S1024x256_o0_0_S1024x128) bitsLt_bf16_f32)
        w1 b1 shapeCasts_S128x512_S128x512 shapeCasts_S1x512_S1x512 broadcasts_S1x512_S1024x512)
        (broadcast S1024x512 (Scalar.ofBits .f32 0x00000000#32))) bitsLt_bf16_f32)
      w2 b2 shapeCasts_S512x512_S512x512 shapeCasts_S1x512_S1x512 broadcasts_S1x512_S1024x512)
      (broadcast S1024x512 (Scalar.ofBits .f32 0x00000000#32))) bitsLt_bf16_f32)
    w3 b3 shapeCasts_S512x128_S512x128 shapeCasts_S1x128_S1x128 broadcasts_S1x128_S1024x128

/-- The body's perceptron is the perceptron on the tile's condition columns. -/
theorem tower_eq (w1 : Vec Ideal S128x512 .bf16) (b1 : Vec Ideal S1x512 .f32) (w2 : Vec Ideal S512x512 .bf16) (b2 : Vec Ideal S1x512 .f32)
    (w3 : Vec Ideal S512x128 .bf16) (b3 : Vec Ideal S1x128 .f32) :
    tower x0 w1 b1 w2 b2 w3 b3 = mlp (cond x0) w1 b1 w2 b2 w3 b3 := by
  unfold tower
  rw [layerV_eq _ d3_plain, layerV_eq _ d2_plain, layerV_eq _ d1_plain, cond_eq]
  rfl

/-- The first perceptron's output, before tanh, is the body's value %30. -/
theorem pay7_tower : k0_pay7 x0 x1 x2 x3 x4 x5 x6 = tower x0 x1 x2 x3 x4 x5 x6 := rfl

/-- The value stored to the first output, laid out as the body computes it. -/
theorem pay2_towers :
    k0_pay2 (k0_pay4 x0) (k0_pay5 x0) (k0_pay7 x0 x1 x2 x3 x4 x5 x6) (k0_pay8 x0 x7) x8 x9 x10 x11 x12
      = concatenate S1024x256 1 [⟨S1024x128, extractStridedSlice S1024x128 ![0, 0] x0 slices_S1024x256_o0_0_S1024x128⟩,
          ⟨S1024x128, addf (mulf (extractStridedSlice S1024x128 ![0, 128] x0 slices_S1024x256_o0_128_S1024x128)
            (exp (tanh (tower x0 x1 x2 x3 x4 x5 x6)))) (tower x0 x7 x8 x9 x10 x11 x12)⟩]
          concatenates_S1024x128_S1024x128_S1024x256_d1 := rfl

/-- THE FIRST OUTPUT'S TILE: the coupling layer's output matrix of the loaded tile. -/
theorem stored_y :
    k0_pay2 (k0_pay4 x0) (k0_pay5 x0) (k0_pay7 x0 x1 x2 x3 x4 x5 x6) (k0_pay8 x0 x7) x8 x9 x10 x11 x12
      = coupled x0 x1 x2 x3 x4 x5 x6 x7 x8 x9 x10 x11 x12 := by
  rw [pay2_towers, tower_eq, tower_eq, rest_eq, joined_apply]
  rfl

/-- THE SECOND OUTPUT'S TILE: the sum over a row of tanh of the first perceptron's outputs. -/
theorem stored_logdet : k0_pay3 (k0_pay7 x0 x1 x2 x3 x4 x5 x6) = logdet x0 x1 x2 x3 x4 x5 x6 := by
  funext y
  rw [eq_ix1 y, pay7_tower, tower_eq]
  unfold k0_pay3 k0_pay1
  exact Cert.LibRowReduce.multiReduction_add_row _ _ _ _ _ (y 0)

end Cert.KernelIdeal.Tile
-- ==== Proof.KernelValue.lean ====
/-
  THE KERNEL'S TWO RESULT ARRAYS, whole.

  Before the launch the host casts the six weight matrices to bf16 (nothing, at the extended reals) and makes each bias
  vector a row. The launch walks 64 tiles of 1024 rows; every weight and bias window is the whole array at every tile,
  and tile t of x is rows 1024 t … 1024 t + 1023. What tile t writes back is the coupling layer of its own rows, and
  since a row of the layer's output looks at that row of x only, it is rows 1024 t … of the layer's output for the
  whole x (`flushed13_eq`, `flushed14_eq`). The 64 tiles cover all 65536 rows, so after the run the first result is
  `coupled` and the second `logdet` of the arguments (`final13`, `final14`, `run`).
-/
import proofs.«178211_j16870631539268_1_alg».proof.Proof.Gen.KernelIdeal.Value
import proofs.«178211_j16870631539268_1_alg».proof.Proof.Payload
import Idealize.ShloMosaic.Lib.Pipeline.Value
import Idealize.ShloMosaic.Lib.StableHlo.Run

noncomputable section
namespace Cert.KernelIdeal.Whole
open Cert.KernelIdeal Cert.KernelIdeal.Gen Cert.KernelIdeal.Value Cert.KernelIdeal.Tile Cert.Coupling Cert.Lib.Dense
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the launch finds: each cast weight is the weight, each reshaped bias the bias as a row -/

theorem V_main_v0 (c : Dev nD) : (V m c main_v0 : S128x512.Idx → EReal) = m ((c : Thread nD τ).loc main_arg1) := by
  dsimp only [V, hostOps0]; after_results; rfl
theorem V_main_v1 (c : Dev nD) : (V m c main_v1 : S512x512.Idx → EReal) = m ((c : Thread nD τ).loc main_arg3) := by
  dsimp only [V, hostOps0]; after_results; rfl
theorem V_main_v2 (c : Dev nD) : (V m c main_v2 : S512x128.Idx → EReal) = m ((c : Thread nD τ).loc main_arg5) := by
  dsimp only [V, hostOps0]; after_results; rfl
theorem V_main_v3 (c : Dev nD) : (V m c main_v3 : S128x512.Idx → EReal) = m ((c : Thread nD τ).loc main_arg7) := by
  dsimp only [V, hostOps0]; after_results; rfl
theorem V_main_v4 (c : Dev nD) : (V m c main_v4 : S512x512.Idx → EReal) = m ((c : Thread nD τ).loc main_arg9) := by
  dsimp only [V, hostOps0]; after_results; rfl
theorem V_main_v5 (c : Dev nD) : (V m c main_v5 : S512x128.Idx → EReal) = m ((c : Thread nD τ).loc main_arg11) := by
  dsimp only [V, hostOps0]; after_results; rfl
theorem V_main_v6 (c : Dev nD) : (V m c main_v6 : S1x512.Idx → EReal) = biasRow (m ((c : Thread nD τ).loc main_arg2)) := by
  dsimp only [V, hostOps0]; after_results; exact shapeCast_row _ _
theorem V_main_v7 (c : Dev nD) : (V m c main_v7 : S1x512.Idx → EReal) = biasRow (m ((c : Thread nD τ).loc main_arg4)) := by
  dsimp only [V, hostOps0]; after_results; exact shapeCast_row _ _
theorem V_main_v8 (c : Dev nD) : (V m c main_v8 : S1x128.Idx → EReal) = biasRow (m ((c : Thread nD τ).loc main_arg6)) := by
  dsimp only [V, hostOps0]; after_results; exact shapeCast_row _ _
theorem V_main_v9 (c : Dev nD) : (V m c main_v9 : S1x512.Idx → EReal) = biasRow (m ((c : Thread nD τ).loc main_arg8)) := by
  dsimp only [V, hostOps0]; after_results; exact shapeCast_row _ _
theorem V_main_v10 (c : Dev nD) : (V m c main_v10 : S1x512.Idx → EReal) = biasRow (m ((c : Thread nD τ).loc main_arg10)) := by
  dsimp only [V, hostOps0]; after_results; exact shapeCast_row _ _
theorem V_main_v11 (c : Dev nD) : (V m c main_v11 : S1x128.Idx → EReal) = biasRow (m ((c : Thread nD τ).loc main_arg12)) := by
  dsimp only [V, hostOps0]; after_results; exact shapeCast_row _ _

/-! ## The index maps, decided over the 64 tiles: x and the two results move with the tile, the rest stay put -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem idx13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)
theorem idx14 : ∀ t : Fin cfg0.N, win0_14.index t (0 : Fin 1) = t.val :=
  (by decide +kernel : ∀ t : Fin grid0.N, win0_14.index t (0 : Fin 1) = t.val)

/-! ## The tiles -/

/-- Row `p` of tile `t` of x is row `1024 t + p` of x. -/
theorem tile_apply (c : Dev nD) (t : Fin cfg0.N) (p : Fin 1024) (q : Fin 256) (r : Fin 65536) (hr : r.val = 1024 * t.val + p.val) :
    (iblk m c 0 t : Vec Ideal S1024x256 .f32) (ix2 p q) = (m ((c : Thread nD τ).loc main_arg0) : S65536x256.Idx → EReal) (ix2 r q) := by
  unfold iblk
  rw [View.read_apply]
  show V m c main_arg0 _ = m ((c : Thread nD τ).loc main_arg0) _
  rw [V_main_arg0]
  congr 1
  funext a
  apply Fin.ext
  obtain ⟨h0, h1⟩ := idx0 t
  match a with
  | ⟨0, _⟩ => show win0_0.index t (0 : Fin 2) * 1024 + 1 * p.val = r.val; rw [h0, hr]; omega
  | ⟨1, _⟩ => show win0_0.index t (1 : Fin 2) * 256 + 1 * q.val = q.val; rw [h1]; omega

set_option hygiene false in
/-- A window whose index map is constantly zero and whose block has its array's extents reads, at every tile, the
    array the launch found, entry for entry: the block's coordinate `0 * extent + 1 * y` is `y`. The arguments: the
    array, what the launch found in it, the window's decided index facts, the window, its two extents. -/
macro "whole_window " arr:ident hV:ident hidx:ident win:ident n0:num n1:num : tactic => `(tactic| (
  funext y
  unfold iblk
  rw [View.read_apply]
  show V m c $arr _ = _
  rw [$hV:ident]
  congr 1
  funext a
  apply Fin.ext
  obtain ⟨h0, h1⟩ := $hidx t
  match a with
  | ⟨0, _⟩ => (show ($win).index t (0 : Fin 2) * $n0 + 1 * (y 0).val = (y 0).val; rw [h0]; omega)
  | ⟨1, _⟩ => (show ($win).index t (1 : Fin 2) * $n1 + 1 * (y 1).val = (y 1).val; rw [h1]; omega)))

theorem blk1_eq (c : Dev nD) (t : Fin cfg0.N) : (iblk m c 1 t : Vec Ideal S128x512 .bf16) = m ((c : Thread nD τ).loc main_arg1) := by
  whole_window main_v0 V_main_v0 idx1 win0_1 128 512
theorem blk2_eq (c : Dev nD) (t : Fin cfg0.N) : (iblk m c 2 t : Vec Ideal S1x512 .f32) = biasRow (m ((c : Thread nD τ).loc main_arg2)) := by
  whole_window main_v6 V_main_v6 idx2 win0_2 1 512
theorem blk3_eq (c : Dev nD) (t : Fin cfg0.N) : (iblk m c 3 t : Vec Ideal S512x512 .bf16) = m ((c : Thread nD τ).loc main_arg3) := by
  whole_window main_v1 V_main_v1 idx3 win0_3 512 512
theorem blk4_eq (c : Dev nD) (t : Fin cfg0.N) : (iblk m c 4 t : Vec Ideal S1x512 .f32) = biasRow (m ((c : Thread nD τ).loc main_arg4)) := by
  whole_window main_v7 V_main_v7 idx4 win0_4 1 512
theorem blk5_eq (c : Dev nD) (t : Fin cfg0.N) : (iblk m c 5 t : Vec Ideal S512x128 .bf16) = m ((c : Thread nD τ).loc main_arg5) := by
  whole_window main_v2 V_main_v2 idx5 win0_5 512 128
theorem blk6_eq (c : Dev nD) (t : Fin cfg0.N) : (iblk m c 6 t : Vec Ideal S1x128 .f32) = biasRow (m ((c : Thread nD τ).loc main_arg6)) := by
  whole_window main_v8 V_main_v8 idx6 win0_6 1 128
theorem blk7_eq (c : Dev nD) (t : Fin cfg0.N) : (iblk m c 7 t : Vec Ideal S128x512 .bf16) = m ((c : Thread nD τ).loc main_arg7) := by
  whole_window main_v3 V_main_v3 idx7 win0_7 128 512
theorem blk8_eq (c : Dev nD) (t : Fin cfg0.N) : (iblk m c 8 t : Vec Ideal S1x512 .f32) = biasRow (m ((c : Thread nD τ).loc main_arg8)) := by
  whole_window main_v9 V_main_v9 idx8 win0_8 1 512
theorem blk9_eq (c : Dev nD) (t : Fin cfg0.N) : (iblk m c 9 t : Vec Ideal S512x512 .bf16) = m ((c : Thread nD τ).loc main_arg9) := by
  whole_window main_v4 V_main_v4 idx9 win0_9 512 512
theorem blk10_eq (c : Dev nD) (t : Fin cfg0.N) : (iblk m c 10 t : Vec Ideal S1x512 .f32) = biasRow (m ((c : Thread nD τ).loc main_arg10)) := by
  whole_window main_v10 V_main_v10 idx10 win0_10 1 512
theorem blk11_eq (c : Dev nD) (t : Fin cfg0.N) : (iblk m c 11 t : Vec Ideal S512x128 .bf16) = m ((c : Thread nD τ).loc main_arg11) := by
  whole_window main_v5 V_main_v5 idx11 win0_11 512 128
theorem blk12_eq (c : Dev nD) (t : Fin cfg0.N) : (iblk m c 12 t : Vec Ideal S1x128 .f32) = biasRow (m ((c : Thread nD τ).loc main_arg12)) := by
  whole_window main_v11 V_main_v11 idx12 win0_12 1 128

/-! ## What each tile writes back -/

theorem hz2 : (![0, 0] : Fin 2 → Nat) = fun _ => 0 := funext fun a => by fin_cases a <;> rfl
theorem hz1 : (![0] : Fin 1 → Nat) = fun _ => 0 := funext fun a => by fin_cases a; rfl

/-- The coupling layer's output matrix of the arguments. -/
abbrev Y (c : Dev nD) : S65536x256.Idx → EReal :=
  coupled (m ((c : Thread nD τ).loc main_arg0))
    (m ((c : Thread nD τ).loc main_arg1)) (biasRow (m ((c : Thread nD τ).loc main_arg2)))
    (m ((c : Thread nD τ).loc main_arg3)) (biasRow (m ((c : Thread nD τ).loc main_arg4)))
    (m ((c : Thread nD τ).loc main_arg5)) (biasRow (m ((c : Thread nD τ).loc main_arg6)))
    (m ((c : Thread nD τ).loc main_arg7)) (biasRow (m ((c : Thread nD τ).loc main_arg8)))
    (m ((c : Thread nD τ).loc main_arg9)) (biasRow (m ((c : Thread nD τ).loc main_arg10)))
    (m ((c : Thread nD τ).loc main_arg11)) (biasRow (m ((c : Thread nD τ).loc main_arg12)))
/-- The coupling layer's log-determinants of the arguments. -/
abbrev L (c : Dev nD) : S65536.Idx → EReal :=
  logdet (m ((c : Thread nD τ).loc main_arg0))
    (m ((c : Thread nD τ).loc main_arg1)) (biasRow (m ((c : Thread nD τ).loc main_arg2)))
    (m ((c : Thread nD τ).loc main_arg3)) (biasRow (m ((c : Thread nD τ).loc main_arg4)))
    (m ((c : Thread nD τ).loc main_arg5)) (biasRow (m ((c : Thread nD τ).loc main_arg6)))

theorem N64 : cfg0.N = 64 := N_0

/-- Tile `t` writes rows 1024 t … of the layer's output matrix. -/
theorem flushed13_eq (c : Dev nD) (t : Fin cfg0.N) :
    (dats m 0 c).flushed 13 t = ((cfg0.win 13).blk t).view.read (Elt Ideal) (Y m c) := by
  rw [flushed13]
  unfold out0_13
  rw [View.canon_unit_zero hz2]
  simp only [View.ld_unit_zero (S := S1024x256) hz2, View.ld_unit_zero (S := S128x512) hz2, View.ld_unit_zero (S := S1x512) hz2,
    View.ld_unit_zero (S := S512x512) hz2, View.ld_unit_zero (S := S512x128) hz2, View.ld_unit_zero (S := S1x128) hz2]
  rw [stored_y (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t)]
  rw [blk1_eq, blk2_eq, blk3_eq, blk4_eq, blk5_eq, blk6_eq, blk7_eq, blk8_eq, blk9_eq, blk10_eq, blk11_eq, blk12_eq]
  funext j
  obtain ⟨p, q, rfl⟩ : ∃ (p : Fin 1024) (q : Fin 256), j = ix2 p q := ⟨j 0, j 1, eq_ix2 j⟩
  have ht : t.val < 64 := lt_of_lt_of_eq t.isLt N64
  have he : ((cfg0.win 13).blk t).view.emb (ix2 p q) = ix2 (⟨1024 * t.val + p.val, by omega⟩ : Fin 65536) q := by
    funext a
    apply Fin.ext
    obtain ⟨h0, h1⟩ := idx13 t
    match a with
    | ⟨0, _⟩ => show win0_13.index t (0 : Fin 2) * 1024 + 1 * p.val = 1024 * t.val + p.val; rw [h0]; omega
    | ⟨1, _⟩ => show win0_13.index t (1 : Fin 2) * 256 + 1 * q.val = q.val; rw [h1]; omega
  show coupled (iblk m c 0 t) _ _ _ _ _ _ _ _ _ _ _ _ (ix2 p q) = Y m c (((cfg0.win 13).blk t).view.emb (ix2 p q))
  rw [he]
  exact coupled_row _ _ p _ (fun q' => tile_apply m c t p q' _ rfl) _ _ _ _ _ _ _ _ _ _ _ _ q

/-- Tile `t` writes entries 1024 t … of the log-determinants. -/
theorem flushed14_eq (c : Dev nD) (t : Fin cfg0.N) :
    (dats m 0 c).flushed 14 t = ((cfg0.win 14).blk t).view.read (Elt Ideal) (L m c) := by
  rw [flushed14]
  unfold out0_14
  rw [View.canon_unit_zero hz1]
  simp only [View.ld_unit_zero (S := S1024x256) hz2, View.ld_unit_zero (S := S128x512) hz2, View.ld_unit_zero (S := S1x512) hz2,
    View.ld_unit_zero (S := S512x512) hz2, View.ld_unit_zero (S := S512x128) hz2, View.ld_unit_zero (S := S1x128) hz2]
  rw [stored_logdet (iblk m c 0 t) (iblk m c 1 t) (iblk m c 2 t) (iblk m c 3 t) (iblk m c 4 t) (iblk m c 5 t) (iblk m c 6 t)]
  rw [blk1_eq, blk2_eq, blk3_eq, blk4_eq, blk5_eq, blk6_eq]
  funext j
  obtain ⟨p, rfl⟩ : ∃ p : Fin 1024, j = ix1 p := ⟨j 0, eq_ix1 j⟩
  have ht : t.val < 64 := lt_of_lt_of_eq t.isLt N64
  have he : ((cfg0.win 14).blk t).view.emb (ix1 p) = ix1 (⟨1024 * t.val + p.val, by omega⟩ : Fin 65536) := by
    funext a
    apply Fin.ext
    match a with
    | ⟨0, _⟩ => show win0_14.index t (0 : Fin 1) * 1024 + 1 * p.val = 1024 * t.val + p.val; rw [idx14 t]; omega
  show logdet (iblk m c 0 t) _ _ _ _ _ _ (ix1 p) = L m c (((cfg0.win 14).blk t).view.emb (ix1 p))
  rw [he]
  exact logdet_row _ _ p _ (fun q' => tile_apply m c t p q' _ rfl) _ _ _ _ _ _

/-! ## The tiles cover the arrays -/

theorem mem_blk13 (t : Fin cfg0.N) (i : S65536x256.Idx) :
    i ∈ ((cfg0.win 13).blk t).view.set ↔ ∀ a : Fin 2, win0_13.index t a * S1024x256.size a ≤ (i a).val ∧ (i a).val < win0_13.index t a * S1024x256.size a + S1024x256.size a := by
  show i ∈ ((View.whole main_v12_0).slice (win0_13.rect t)).set ↔ _
  rw [View.set_slice_whole, Rect.mem_set_unit]
  exact Iff.rfl

theorem mem_blk14 (t : Fin cfg0.N) (i : S65536.Idx) :
    i ∈ ((cfg0.win 14).blk t).view.set ↔ ∀ a : Fin 1, win0_14.index t a * S1024.size a ≤ (i a).val ∧ (i a).val < win0_14.index t a * S1024.size a + S1024.size a := by
  show i ∈ ((View.whole main_v12_1).slice (win0_14.rect t)).set ↔ _
  rw [View.set_slice_whole, Rect.mem_set_unit]
  exact Iff.rfl

/-- Row `r` lies in tile `r / 1024`. -/
theorem cover13 (i : S65536x256.Idx) : ∃ t : Fin cfg0.N, (cfg0.win 13).flush t = true ∧ i ∈ ((cfg0.win 13).blk t).view.set := by
  have hi0 : (i 0).val < 65536 := (i 0).isLt
  have hi1 : (i 1).val < 256 := (i 1).isLt
  let t0 : Fin cfg0.N := ⟨(i 0).val / 1024, by rw [N64]; omega⟩
  have ht0 : t0.val = (i 0).val / 1024 := rfl
  refine ⟨t0, flush0_13 t0, ?_⟩
  rw [mem_blk13]
  obtain ⟨h0, h1⟩ := idx13 t0
  intro a
  match a with
  | ⟨0, _⟩ => show win0_13.index t0 (0 : Fin 2) * 1024 ≤ (i 0).val ∧ (i 0).val < win0_13.index t0 (0 : Fin 2) * 1024 + 1024; rw [h0, ht0]; omega
  | ⟨1, _⟩ => show win0_13.index t0 (1 : Fin 2) * 256 ≤ (i 1).val ∧ (i 1).val < win0_13.index t0 (1 : Fin 2) * 256 + 256; rw [h1]; omega

theorem cover14 (i : S65536.Idx) : ∃ t : Fin cfg0.N, (cfg0.win 14).flush t = true ∧ i ∈ ((cfg0.win 14).blk t).view.set := by
  have hi0 : (i 0).val < 65536 := (i 0).isLt
  let t0 : Fin cfg0.N := ⟨(i 0).val / 1024, by rw [N64]; omega⟩
  have ht0 : t0.val = (i 0).val / 1024 := rfl
  refine ⟨t0, flush0_14 t0, ?_⟩
  rw [mem_blk14]
  intro a
  match a with
  | ⟨0, _⟩ => show win0_14.index t0 (0 : Fin 1) * 1024 ≤ (i 0).val ∧ (i 0).val < win0_14.index t0 (0 : Fin 1) * 1024 + 1024; rw [idx14 t0, ht0]; omega

/-- After the run the first result array is the layer's output matrix of the arguments. -/
theorem final13 (c : Dev nD) : (dats m 0 c).arrAt 13 cfg0.N = Y m c :=
  (dats m 0 c).arrAt_eq_of_cover 13 (Y m c) (fun t _ => flushed13_eq m c t) cover13

/-- After the run the second result array is the layer's log-determinants of the arguments. -/
theorem final14 (c : Dev nD) : (dats m 0 c).arrAt 14 cfg0.N = L m c :=
  (dats m 0 c).arrAt_eq_of_cover 14 (L m c) (fun t _ => flushed14_eq m c t) cover14

/-- The kernel's run, read: both results named, the arguments unchanged. -/
theorem run : θ_run defs (onTc (τ := τ) (main (F := Ideal))) ⟨m, fun _ => 0, ρ⟩ fun r => ∀ c : Dev nD,
      r.2.mem ((c : Thread nD τ).loc main_v12_0) = Y m c
      ∧ r.2.mem ((c : Thread nD τ).loc main_v12_1) = L m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final13 m c), (h c).2.1.trans (final14 m c), (h c).2.2⟩)
    (run_blocks m ρ)

end Cert.KernelIdeal.Whole
-- ==== Proof.LibHostRowSum.lean ====
/-
  The host's sum along the rows of a matrix, read at a row written by its coordinate.

  For an `[a, b]` array summed over its second axis by a host reduce with an add body, the entry at row `i` is the
  initial value plus the sum over the columns of that row: the host-side companion of the vector unit's row sum.
-/
import proofs.«178211_j16870631539268_1_alg».proof.Proof.LibRowReduce

noncomputable section

open scoped BigOperators

namespace Cert.LibHostRowSum

open Idealize.ShloMosaic Idealize.ShloMosaic.ValueIdx

variable {a b : ℕ} {φ : FTy}

/-- The host's reduce with an add body over the second axis, at row `i`: the initial value plus the sum over the
    columns of that row. -/
theorem hostReduceAdd_row {u : Shape} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (i : Fin a) :
    Host.reduceAdd x init h' hu (ix1 i) = init (Shape.Idx.first hu) + ∑ k : Fin b, x (ix2 i k) := by
  show Ideal.hostReduceAdd h' x (init (Shape.Idx.first hu)) (ix1 i) = _
  rw [Ideal.hostReduceAdd_single h' h]
  exact congrArg (_ + ·) (Finset.sum_congr rfl fun k _ => congrArg x (Cert.LibRowReduce.lift_row h i k))

end Cert.LibHostRowSum

end
-- ==== Proof.RefValue.lean ====
/-
  WHAT THE REFERENCE COMPUTES, as the coupling layer of the whole matrix.

  The reference slices the condition columns off x, runs each perceptron as three dot products with a bias vector made a
  row and repeated down the rows (rectified after the first two by a maximum with a repeated zero), and puts the condition
  columns back beside x_t * exp (tanh s) + t; its second result sums tanh s along each row from a zero start. Read at
  the extended reals these are `coupled` and `logdet` of the whole matrix, with each bias vector as a bias row.
-/
import proofs.«178211_j16870631539268_1_alg».proof.Proof.Gen.ReferenceIdeal.Run
import proofs.«178211_j16870631539268_1_alg».proof.Proof.Coupling
import proofs.«178211_j16870631539268_1_alg».proof.Proof.LibHostRowSum

noncomputable section
namespace Cert.ReferenceIdeal.Whole
open Idealize.ShloMosaic Idealize.ShloMosaic.ValueIdx
open Cert.ReferenceIdeal Cert.ReferenceIdeal.Gen Cert.Coupling Cert.Lib.Dense Cert.Lib.Rectify

theorem d1_plain : dot_S65536x128_S128x512_S65536x512_1_0_0_1_n_n = DotDims.plain 65536 128 512 := rfl
theorem d2_plain : dot_S65536x512_S512x512_S65536x512_1_0_0_1_n_n = DotDims.plain 65536 512 512 := rfl
theorem d3_plain : dot_S65536x512_S512x128_S65536x128_1_0_0_1_n_n = DotDims.plain 65536 512 128 := rfl

variable (X : FVec Ideal S65536x256 .f32)

/-- A perceptron as the reference writes it, on the condition columns of the whole matrix. -/
def tower (w1 : FVec Ideal S128x512 .f32) (b1 : FVec Ideal S512 .f32) (w2 : FVec Ideal S512x512 .f32) (b2 : FVec Ideal S512 .f32)
    (w3 : FVec Ideal S512x128 .f32) (b3 : FVec Ideal S128 .f32) : FVec Ideal S65536x128 .f32 :=
  layerH dot_S65536x512_S512x128_S65536x128_1_0_0_1_n_n
    (maximumf (layerH dot_S65536x512_S512x512_S65536x512_1_0_0_1_n_n
      (maximumf (layerH dot_S65536x128_S128x512_S65536x512_1_0_0_1_n_n
        (extractStridedSlice S65536x128 ![0, 0] X slices_S65536x256_S65536x128_0_0)
        w1 b1 bcast_S512_S1x512_1 bcast_S1x512_S65536x512_0_1)
        (broadcastInDim S65536x512 ![] bcast_S_S65536x512 (constant S_ .f32 0x00000000#32)))
      w2 b2 bcast_S512_S1x512_1 bcast_S1x512_S65536x512_0_1)
      (broadcastInDim S65536x512 ![] bcast_S_S65536x512 (constant S_ .f32 0x00000000#32)))
    w3 b3 bcast_S128_S1x128_1 bcast_S1x128_S65536x128_0_1

theorem tower_eq (w1 : FVec Ideal S128x512 .f32) (b1 : FVec Ideal S512 .f32) (w2 : FVec Ideal S512x512 .f32) (b2 : FVec Ideal S512 .f32)
    (w3 : FVec Ideal S512x128 .f32) (b3 : FVec Ideal S128 .f32) :
    tower X w1 b1 w2 b2 w3 b3 = mlp (cond X) w1 (biasRow b1) w2 (biasRow b2) w3 (biasRow b3) := by
  unfold tower
  rw [layerH_eq _ d3_plain, layerH_eq _ d2_plain, layerH_eq _ d1_plain, relu_host, relu_host, cond_eq]
  rfl

variable (ws1 : FVec Ideal S128x512 .f32) (bs1 : FVec Ideal S512 .f32) (ws2 : FVec Ideal S512x512 .f32) (bs2 : FVec Ideal S512 .f32)
  (ws3 : FVec Ideal S512x128 .f32) (bs3 : FVec Ideal S128 .f32) (wt1 : FVec Ideal S128x512 .f32) (bt1 : FVec Ideal S512 .f32)
  (wt2 : FVec Ideal S512x512 .f32) (bt2 : FVec Ideal S512 .f32) (wt3 : FVec Ideal S512x128 .f32) (bt3 : FVec Ideal S128 .f32)

/-- THE FIRST RESULT: the coupling layer's output matrix of the whole x. -/
theorem result_y :
    concatenate S65536x256 1 [⟨S65536x128, extractStridedSlice S65536x128 ![0, 0] X slices_S65536x256_S65536x128_0_0⟩,
        ⟨S65536x128, addf (mulf (extractStridedSlice S65536x128 ![0, 128] X slices_S65536x256_S65536x128_0_128)
          (Host.exp (Host.tanh (tower X ws1 bs1 ws2 bs2 ws3 bs3)))) (tower X wt1 bt1 wt2 bt2 wt3 bt3)⟩]
        concatenates_S65536x128_S65536x128_S65536x256_d1
      = coupled X ws1 (biasRow bs1) ws2 (biasRow bs2) ws3 (biasRow bs3) wt1 (biasRow bt1) wt2 (biasRow bt2) wt3 (biasRow bt3) := by
  rw [tower_eq, tower_eq, rest_eq, joined_apply]
  rfl

/-- THE SECOND RESULT: each row's sum of tanh of the first perceptron's outputs (the zero start adds nothing). -/
theorem result_logdet :
    Host.reduceAdd (Host.tanh (tower X ws1 bs1 ws2 bs2 ws3 bs3)) (constant S_ .f32 0x00000000#32) reducesTo_S65536x128_S65536_d1 h_S_
      = logdet X ws1 (biasRow bs1) ws2 (biasRow bs2) ws3 (biasRow bs3) := by
  funext i
  obtain ⟨r, rfl⟩ : ∃ r : Fin 65536, i = ix1 r := ⟨i 0, eq_ix1 i⟩
  rw [tower_eq, Cert.LibHostRowSum.hostReduceAdd_row _ _ _ (by decide) _ r]
  unfold logdet
  show Ideal.ofBits .f32 0x00000000#32 + ∑ k : Fin 128, Ideal.tanh (mlp (cond X) ws1 (biasRow bs1) ws2 (biasRow bs2) ws3 (biasRow bs3) (ix2 r k)) = _
  rw [Ideal.ofBits_zero_f32, zero_add]

end Cert.ReferenceIdeal.Whole
-- ==== Proof.lean ====
/-
  The certificate of the affine coupling layer: the tiled kernel against the whole-matrix reference.

  Both programs run, fault nowhere and leave their arguments as they were: the kernel's two frames are the generated
  ones, the reference's is its generated run with the results dropped. The idealization rewrote nothing, so
  `preserves` has nothing to state. At the extended reals the two programs end with equal results: the kernel's
  result arrays are `coupled` and `logdet` of its arguments (KernelValue), the reference's are the same two
  functions of its own arguments (RefValue), and the arguments agree.
-/
import proofs.«178211_j16870631539268_1_alg».proof.Defs
import proofs.«178211_j16870631539268_1_alg».proof.Proof.Gen.Kernel
import proofs.«178211_j16870631539268_1_alg».proof.Proof.Gen.Kernel.Skeleton
import proofs.«178211_j16870631539268_1_alg».proof.Proof.Gen.Kernel.Launch
import proofs.«178211_j16870631539268_1_alg».proof.Proof.Gen.Kernel.Points
import proofs.«178211_j16870631539268_1_alg».proof.Proof.Gen.Kernel.Frame
import proofs.«178211_j16870631539268_1_alg».proof.Proof.Gen.KernelIdeal
import proofs.«178211_j16870631539268_1_alg».proof.Proof.Gen.KernelIdeal.Skeleton
import proofs.«178211_j16870631539268_1_alg».proof.Proof.Gen.KernelIdeal.Launch
import proofs.«178211_j16870631539268_1_alg».proof.Proof.Gen.KernelIdeal.Points
import proofs.«178211_j16870631539268_1_alg».proof.Proof.Gen.KernelIdeal.Frame
import proofs.«178211_j16870631539268_1_alg».proof.Proof.Gen.ReferenceIdeal
import proofs.«178211_j16870631539268_1_alg».proof.Proof.Gen.Pre_finite_inputs
import proofs.«178211_j16870631539268_1_alg».proof.Proof.Gen.KernelIdeal.Value
import proofs.«178211_j16870631539268_1_alg».proof.Proof.Gen.ReferenceIdeal.Run
import proofs.«178211_j16870631539268_1_alg».proof.Proof.KernelValue
import proofs.«178211_j16870631539268_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The two runs side by side: each result is one function of the arguments, and the arguments agree. -/
theorem algebraic : Cert.algebraic_KernelIdeal_ReferenceIdeal := by
  intro m ρ m' ρ' _ hagree
  refine ⟨fun c => Cert.KernelIdeal.Whole.Y m c, fun c => Cert.KernelIdeal.Whole.L m c, Cert.KernelIdeal.Whole.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12⟩ := hagree c
  refine ⟨(h c).1.trans ?_, (h c).2.1.trans ?_, (h c).2.2⟩
  · refine (Cert.ReferenceIdeal.Whole.result_y _ _ _ _ _ _ _ _ _ _ _ _ _).trans ?_
    rw [a0, a1, a2, a3, a4, a5, a6, a7, a8, a9, a10, a11, a12]
  · refine (Cert.ReferenceIdeal.Whole.result_logdet _ _ _ _ _ _ _).trans ?_
    rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
